-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x384 : Shape := ⟨2, ![128, 384]⟩
abbrev S2x384 : Shape := ⟨2, ![2, 384]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x384 : S_.BroadcastsInDim S128x384 (![] : Fin 0 → Fin S128x384.rank)
  reducesTo_S128x384_S_d0_1 : S128x384.ReducesTo [0, 1] S_
  bcast_S_S2x384 : S_.BroadcastsInDim S2x384 (![] : Fin 0 → Fin S2x384.rank)
  reducesTo_S2x384_S_d0_1 : S2x384.ReducesTo [0, 1] S_

variable [Facts]

def fn_part2 {F : FTy → Type} [FloatOps F] (main_arg9 : FVec F S2x384 .f32) (main_v33 : IVec S_ 1) : IVec S_ 1 :=
  let main_v34 : FVec F S2x384 .f32 := Host.absf main_arg9
  let main_cst_12 : FVec F S_ .f32 := constant S_ .f32 0x7F800000#32
  let main_v35 : FVec F S2x384 .f32 := broadcastInDim S2x384 ![] bcast_S_S2x384 main_cst_12
  let main_v36 : IVec S2x384 1 := cmpf .olt main_v34 main_v35
  let main_c_13 : IVec S_ 1 := constantI S_ 1 1#1
  let main_v37 : IVec S_ 1 := (fun x v => Host.reduce IntOp.andi x v reducesTo_S2x384_S_d0_1 h_S_) main_v36 main_c_13
  let main_v38 : IVec S_ 1 := andi main_v33 main_v37
  main_v38

def fn_part1 {F : FTy → Type} [FloatOps F] (main_arg6 : FVec F S128 .f32) (main_arg7 : FVec F S128x384 .f32) (main_arg8 : FVec F S128x384 .f32) (main_arg9 : FVec F S2x384 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x384 .f32 := Host.absf main_arg7
  let main_cst_8 : FVec F S_ .f32 := constant S_ .f32 0x7F800000#32
  let main_v25 : FVec F S128x384 .f32 := broadcastInDim S128x384 ![] bcast_S_S128x384 main_cst_8
  let main_v26 : IVec S128x384 1 := cmpf .olt main_v24 main_v25
  let main_c_9 : IVec S_ 1 := constantI S_ 1 1#1
  let main_v27 : IVec S_ 1 := (fun x v => Host.reduce IntOp.andi x v reducesTo_S128x384_S_d0_1 h_S_) main_v26 main_c_9
  let main_v28 : IVec S_ 1 := andi main_v23 main_v27
  let main_v29 : FVec F S128x384 .f32 := Host.absf main_arg8
  let main_cst_10 : FVec F S_ .f32 := constant S_ .f32 0x7F800000#32
  let main_v30 : FVec F S128x384 .f32 := broadcastInDim S128x384 ![] bcast_S_S128x384 main_cst_10
  let main_v31 : IVec S128x384 1 := cmpf .olt main_v29 main_v30
  let main_c_11 : IVec S_ 1 := constantI S_ 1 1#1
  let main_v32 : IVec S_ 1 := (fun x v => Host.reduce IntOp.andi x v reducesTo_S128x384_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S600000 32) (main_arg2 : IVec S600000 32) (main_arg3 : FVec F S128x128 .f32) (main_arg4 : FVec F S128 .f32) (main_arg5 : FVec F S128x128 .f32) (main_arg6 : FVec F S128 .f32) (main_arg7 : FVec F S128x384 .f32) (main_arg8 : FVec F S128x384 .f32) (main_arg9 : FVec F S2x384 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x384 : Shape := ⟨2, ![128, 384]⟩
abbrev S2x384 : Shape := ⟨2, ![2, 384]⟩
abbrev S2000x128 : Shape := ⟨2, ![2000, 128]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S2000x384 : Shape := ⟨2, ![2000, 384]⟩
abbrev S1x384 : Shape := ⟨2, ![1, 384]⟩
abbrev S384 : Shape := ⟨1, ![384]⟩

abbrev nBuf : Space → Nat
  | .hbm => 50
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x384, .f32⟩
  | .hbm, ⟨8, _⟩ => ⟨S128x384, .f32⟩
  | .hbm, ⟨9, _⟩ => ⟨S2x384, .f32⟩
  | .hbm, ⟨10, _⟩ => ⟨S50000x128, .f32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S_, .f32⟩
  | .hbm, ⟨30, _⟩ => ⟨S50000x128, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S50000x128, .f32⟩
  | .hbm, ⟨40, _⟩ => ⟨S_, .i32⟩
  | .hbm, ⟨41, _⟩ => ⟨S600000, .i32⟩
  | .hbm, ⟨42, _⟩ => ⟨S600000, .i1⟩
  | .hbm, ⟨43, _⟩ => ⟨S_, .i32⟩
  | .hbm, ⟨44, _⟩ => ⟨S600000, .i32⟩
  | .hbm, ⟨45, _⟩ => ⟨S600000, .i32⟩
  | .hbm, ⟨46, _⟩ => ⟨S600000, .i32⟩
  | .hbm, ⟨47, _⟩ => ⟨S600000x1, .i32⟩
  | .hbm, ⟨48, _⟩ => ⟨S50000x128, .f32⟩
  | .hbm, ⟨49, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x384, .f32⟩
  | .local _ .vmem, ⟨13, _⟩ => ⟨S128x384, .f32⟩
  | .local _ .vmem, ⟨14, _⟩ => ⟨S2x384, .f32⟩
  | .local _ .vmem, ⟨15, _⟩ => ⟨S2000x128, .f32⟩
  | .local _ .vmem, ⟨16, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  shapeCasts_S2000x128_S2000x128 : S2000x128.ShapeCasts S2000x128
  inb_S128x384_S128x384_0_0 : ∀ a, (![0, 0] : Fin 2 → Nat) a + S128x384.size a ≤ S128x384.size a
  h_S128x384 : 0 < S128x384.numel
  inb_S2x384_S1x384_0_0 : ∀ a, (![0, 0] : Fin 2 → Nat) a + S1x384.size a ≤ S2x384.size a
  h_S1x384 : 0 < S1x384.numel
  shapeCasts_S1x384_S384 : S1x384.ShapeCasts S384
  shapeCasts_S384_S1x384 : S384.ShapeCasts S1x384
  broadcasts_S1x384_S2000x384 : S1x384.Broadcasts S2000x384
  inb_S2x384_S1x384_1_0 : ∀ a, (![1, 0] : Fin 2 → Nat) a + S1x384.size a ≤ S2x384.size a
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  dot_S2000x128_S128x128_S2000x128_1_0_0_1_n_n_wf : DotDims.WF S2000x128 S128x128 S2000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x384_S2000x384_1_0_0_1_n_n_wf : DotDims.WF S2000x128 S128x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x384.size a ≤ S128x384.size a
  hwx1_2 : ∀ i : grid1.Coords, EltTy.bits .f32 = 32 ∨ (Rect.block (s := S128x384) S128x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x384.size a ≤ S128x384.size a
  hwx1_3 : ∀ i : grid1.Coords, EltTy.bits .f32 = 32 ∨ (Rect.block (s := S128x384) S128x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2x384.size a ≤ S2x384.size a
  hwx1_4 : ∀ i : grid1.Coords, EltTy.bits .f32 = 32 ∨ (Rect.block (s := S2x384) S2x384.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S2x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x384 : Shape := ⟨2, ![128, 384]⟩
abbrev S2x384 : Shape := ⟨2, ![2, 384]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S50000x384 : Shape := ⟨2, ![50000, 384]⟩
abbrev S1x384 : Shape := ⟨2, ![1, 384]⟩
abbrev S384 : Shape := ⟨1, ![384]⟩

abbrev nBuf : Space → Nat
  | .hbm => 101
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x384, .f32⟩
  | .hbm, ⟨8, _⟩ => ⟨S128x384, .f32⟩
  | .hbm, ⟨9, _⟩ => ⟨S2x384, .f32⟩
  | .hbm, ⟨10, _⟩ => ⟨S50000x128, .f32⟩
  | .hbm, ⟨11, _⟩ => ⟨S1x128, .f32⟩
  | .hbm, ⟨12, _⟩ => ⟨S50000x128, .f32⟩
  | .hbm, ⟨13, _⟩ => ⟨S50000x128, .f32⟩
  | .hbm, ⟨14, _⟩ => ⟨S50000x128, .f32⟩
  | .hbm, ⟨15, _⟩ => ⟨S1x128, .f32⟩
  | .hbm, ⟨16, _⟩ => ⟨S50000x128, .f32⟩
  | .hbm, ⟨17, _⟩ => ⟨S50000x128, .f32⟩
  | .hbm, ⟨18, _⟩ => ⟨S_, .f32⟩
  | .hbm, ⟨19, _⟩ => ⟨S50000x128, .f32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S50000x128, .f32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000x128, .f32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S50000x128, .f32⟩
  | .hbm, ⟨56, _⟩ => ⟨S50000x384, .f32⟩
  | .hbm, ⟨57, _⟩ => ⟨S1x384, .f32⟩
  | .hbm, ⟨58, _⟩ => ⟨S384, .f32⟩
  | .hbm, ⟨59, _⟩ => ⟨S1x384, .f32⟩
  | .hbm, ⟨60, _⟩ => ⟨S50000x384, .f32⟩
  | .hbm, ⟨61, _⟩ => ⟨S50000x384, .f32⟩
  | .hbm, ⟨62, _⟩ => ⟨S50000x384, .f32⟩
  | .hbm, ⟨63, _⟩ => ⟨S1x384, .f32⟩
  | .hbm, ⟨64, _⟩ => ⟨S384, .f32⟩
  | .hbm, ⟨65, _⟩ => ⟨S1x384, .f32⟩
  | .hbm, ⟨66, _⟩ => ⟨S50000x384, .f32⟩
  | .hbm, ⟨67, _⟩ => ⟨S50000x384, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S_, .f32⟩
  | .hbm, ⟨87, _⟩ => ⟨S50000x128, .f32⟩
  | .hbm, ⟨88, _⟩ => ⟨S50000x128, .f32⟩
  | .hbm, ⟨89, _⟩ => ⟨S_, .f32⟩
  | .hbm, ⟨90, _⟩ => ⟨S50000x128, .f32⟩
  | .hbm, ⟨91, _⟩ => ⟨S50000x128, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S50000x128, .f32⟩
  | .hbm, ⟨96, _⟩ => ⟨S_, .f32⟩
  | .hbm, ⟨97, _⟩ => ⟨S50000x128, .f32⟩
  | .hbm, ⟨98, _⟩ => ⟨S50000x128, .f32⟩
  | .hbm, ⟨99, _⟩ => ⟨S50000x128, .f32⟩
  | .hbm, ⟨100, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_7 : Ref sig .tc := ⟨.hbm, 77, rfl⟩
abbrev main_v58 : Ref sig .tc := ⟨.hbm, 78, rfl⟩
abbrev main_v59 : Ref sig .tc := ⟨.hbm, 79, rfl⟩
abbrev main_cst_8 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_9 : Ref sig .tc := ⟨.hbm, 86, rfl⟩
abbrev main_v65 : Ref sig .tc := ⟨.hbm, 87, rfl⟩
abbrev main_v66 : Ref sig .tc := ⟨.hbm, 88, rfl⟩
abbrev main_cst_10 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_11 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  slices_S2x384_S1x384_0_0 : S2x384.Slices ![0, 0] S1x384
  shapeCasts_S1x384_S384 : S1x384.ShapeCasts S384
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  slices_S2x384_S1x384_1_0 : S2x384.Slices ![1, 0] S1x384
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x384_S50000x384_1_0_0_1_n_n_wf : DotDims.WF S50000x128 S128x384 S50000x384 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf

class Facts : Prop extends Facts₀ where

variable [Facts]
-- ==== Proof.Spec.lean ====
/-
  One step of a gated graph update, row by row.

  A node's message is two affine maps in a row: m = (x W1 + b1) W2 + b2, each product a sum over the 128 coordinates.
  The messages are then gathered along the edges and added up at the nodes (not opened here: both programs do it with
  the same operations). A node's new state is the gated blend of its old state x and a candidate: with the three
  128-wide thirds of the 384-wide pre-activations  mx = a Gk + c0  (a the node's summed messages)  and  mh = x Gr + c1,
      z = logistic (mx_0 + mh_0),   r = logistic (mx_1 + mh_1),   h = tanh (mx_2 + r * mh_2),
      new = z * x + (1 - z) * h.
  Everything is over the extended reals and every function below is of ONE ROW of the node table, so that a block of
  rows and the whole table are read by the same formula.
-/
import Idealize.ShloMosaic.PureOps.Ideal
import Idealize.ShloMosaic.Lib.ValueIdx

noncomputable section

open scoped BigOperators

namespace Cert.GatedGraph

open Idealize.ShloMosaic Idealize.ShloMosaic.ValueIdx

/-- A table of extended reals with `a` rows and `b` columns. -/
abbrev Tab (a b : Nat) := (⟨2, ![a, b]⟩ : Shape).Idx → EReal
/-- A vector of `a` extended reals. -/
abbrev Vct (a : Nat) := (⟨1, ![a]⟩ : Shape).Idx → EReal

/-- An affine map of a row: (x W)_p + bias_p, the product a sum over the row's 128 coordinates. -/
def affine {n : Nat} (x : Fin 128 → EReal) (W : Tab 128 n) (bias : Fin n → EReal) (p : Fin n) : EReal :=
  (∑ k : Fin 128, x k * W (ix2 k p)) + bias p

/-- A node's message: the two affine maps one after the other. -/
def message (x : Fin 128 → EReal) (W1 : Tab 128 128) (b1 : Vct 128) (W2 : Tab 128 128) (b2 : Vct 128) (q : Fin 128) : EReal :=
  affine (fun k => affine x W1 (fun j => b1 (ix1 j)) k) W2 (fun j => b2 (ix1 j)) q

/-- Column q of the first, second and third 128-wide third of a 384-wide row. -/
abbrev third0 (q : Fin 128) : Fin 384 := ⟨q.val, by have := q.isLt; omega⟩
abbrev third1 (q : Fin 128) : Fin 384 := ⟨128 + q.val, by have := q.isLt; omega⟩
abbrev third2 (q : Fin 128) : Fin 384 := ⟨256 + q.val, by have := q.isLt; omega⟩

/-- The gated blend from the two 384-wide pre-activation rows and the old state. -/
def blend (mx mh : Fin 384 → EReal) (x : Fin 128 → EReal) (q : Fin 128) : EReal :=
  Ideal.logistic (mx (third0 q) + mh (third0 q)) * x q
    + (Ideal.ofBits .f32 0x3F800000#32 - Ideal.logistic (mx (third0 q) + mh (third0 q)))
      * Ideal.tanh (mx (third2 q) + Ideal.logistic (mx (third1 q) + mh (third1 q)) * mh (third2 q))

/-- A node's new state from its summed messages `a`, its old state `x`, the two weight tables and the two bias rows. -/
def update (a x : Fin 128 → EReal) (Gk Gr : Tab 128 384) (c0 c1 : Fin 384 → EReal) (q : Fin 128) : EReal :=
  blend (affine a Gk c0) (affine x Gr c1) x q

/-- The message table: row i of `X` sent through `message`. -/
def messageTab {n : Nat} (X : Tab n 128) (W1 : Tab 128 128) (b1 : Vct 128) (W2 : Tab 128 128) (b2 : Vct 128) : Tab n 128 :=
  fun i => message (fun k => X (ix2 (i 0) k)) W1 b1 W2 b2 (i 1)

/-- The updated table: row i of the summed messages `A` and of the old states `X` sent through `update`, the bias
    rows the two rows of `B`. -/
def updateTab {n : Nat} (A X : Tab n 128) (Gk Gr : Tab 128 384) (B : Tab 2 384) : Tab n 128 :=
  fun i => update (fun k => A (ix2 (i 0) k)) (fun k => X (ix2 (i 0) k)) Gk Gr
    (fun p => B (ix2 (0 : Fin 2) p)) (fun p => B (ix2 (1 : Fin 2) p)) (i 1)

end Cert.GatedGraph

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.KernelMessages.lean ====
/-
  The first pipeline's result is the message table.

  Its grid has 25 points; point t takes rows 2000 t … 2000 t + 1999 of the node table and the four weight arrays whole,
  and writes the same rows of the result. The body is the two affine maps of a row (the changes of float format are the
  identity on the extended reals, a matrix product into a zero accumulator is the sum over the 128 coordinates), so
  what point t writes back is block t of the message table, and the 25 blocks cover the 50000 rows.
-/
import proofs.«122592_j80221399155535_1_alg».proof.Proof.Gen.KernelIdeal.Frame
import proofs.«122592_j80221399155535_1_alg».proof.Proof.Spec
import proofs.«122592_j80221399155535_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.MessageValue

open Cert.KernelIdeal Cert.KernelIdeal.Gen Cert.GatedGraph
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-! ## The body at an entry -/

/-- A bias vector laid out as one row and broadcast over the 2000 rows of a block: entry (p, q) is entry q of the vector. -/
theorem bias_entry (b : Vec Ideal S128 .f32) (p : Fin 2000) (q : Fin 128) :
    broadcastTo S2000x128 (shapeCast S1x128 b shapeCasts_S128_S1x128) broadcasts_S1x128_S2000x128 (ix2 p q) = b (ix1 q) := by
  refine (broadcastTo_apply _ broadcasts_S1x128_S2000x128 (ix2 p q) (ix2 (0 : Fin 1) q) ?_).trans ?_
  · intro a
    match a with
    | ⟨0, _⟩ => rfl
    | ⟨1, _⟩ => rfl
  · refine shapeCast_apply b shapeCasts_S128_S1x128 (ix2 (0 : Fin 1) q) (ix1 q) ?_
    rw [Shape.rowMajor_val_one, Shape.rowMajor_val_two]
    show q.val = (0 : Fin 1).val * 128 + q.val
    simp

/-- A product of a block of rows with a 128 x 128 array into the zero accumulator: entry (p, q) is the sum over the
    128 coordinates of row p. -/
theorem product_entry {φ₁ φ₂ : FTy} (x : FVec Ideal S2000x128 φ₁) (w : FVec Ideal S128x128 φ₂) (p : Fin 2000) (q : Fin 128) :
    matmul dot_S2000x128_S128x128_S2000x128_1_0_0_1_n_n none x w (constant S2000x128 .f32 0x00000000#32) (ix2 p q)
      = ∑ k : Fin 128, x (ix2 p k) * w (ix2 k q) :=
  Cert.LibPlainDot.matmul_zero_apply dot_S2000x128_S128x128_S2000x128_1_0_0_1_n_n rfl rfl rfl rfl rfl rfl none x w p q

/-- The body's stored value at entry (p, q) of a block is the message of row p of the block. -/
theorem payload_entry (v0 : Vec Ideal S2000x128 .f32) (v2 : Vec Ideal S128x128 .f32) (v5 : Vec Ideal S128 .f32)
    (v10 : Vec Ideal S128x128 .f32) (v13 : Vec Ideal S128 .f32) (p : Fin 2000) (q : Fin 128) :
    k0_pay1 v0 v2 v5 v10 v13 (ix2 p q) = message (fun k => v0 (ix2 p k)) v2 v5 v10 v13 q := by
  unfold k0_pay1 message affine
  dsimp only
  rw [addf_apply, product_entry, bias_entry]
  refine congrArg (· + v13 (ix1 q)) (Finset.sum_congr rfl fun k _ => ?_)
  rw [truncf_apply, truncf_apply, addf_apply, product_entry, bias_entry]
  rfl

/-! ## The blocks -/

/-- The printed index maps, decided over the grid: at point t the node table's and the result's block is block (t, 0);
    each weight array is its one block. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- What point t writes back is block t of the message table of the arrays as the pipeline found them. -/
theorem flushed_eq (c : Dev nD) (t : Fin cfg0.N) :
    (dat0 (F := Ideal) V c).flushed 5 t = ((cfg0.win 5).blk t).view.read (Elt Ideal)
      (messageTab (V c main_arg0) (V c main_arg3) (V c main_arg4) (V c main_arg5) (V c main_arg6)) := by
  show (cfg0.win 5).cut (grid0.coords t) ((dat0 V c).after 5 t) = _
  rw [after0_5]
  unfold out0_5
  rw [View.canon_unit_zero zeros2]
  simp only [View.ld_unit_zero (S := S2000x128) zeros2, View.ld_unit_zero (S := S128x128) zeros2,
    View.ld_unit_zero (S := S128) zeros1]
  obtain ⟨e00, e01, e10, e11, e20, e30, e31, e40, e50, e51⟩ := index_facts t
  funext y
  obtain ⟨p, q, rfl⟩ : ∃ (p : Fin 2000) (q : Fin 128), y = ix2 p q := ⟨y 0, y 1, eq_ix2 y⟩
  show k0_pay1 (iblk0 V c 0 t) (iblk0 V c 1 t) (iblk0 V c 2 t) (iblk0 V c 3 t) (iblk0 V c 4 t) (ix2 p q)
    = messageTab (V c main_arg0) (V c main_arg3) (V c main_arg4) (V c main_arg5) (V c main_arg6)
        (((cfg0.win 5).blk t).view.emb (ix2 p q))
  refine (payload_entry _ _ _ _ _ p q).trans ?_
  -- row p of the node table's block at point t is row 2000 t + p of the table, which is the row of the result's entry
  have r0 : ∀ k : Fin 128, iblk0 V c 0 t (ix2 p k)
      = V c main_arg0 (ix2 ((((cfg0.win 5).blk t).view.emb (ix2 p q)) 0) k) := by
    intro k
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = win0_5.index t (0 : Fin 2) * 2000 + 1 * p.val; rw [e00, e50]
    | ⟨1, _⟩ => show win0_0.index t (1 : Fin 2) * 128 + 1 * k.val = k.val; rw [e01]; omega
  -- a weight array is its one block
  have r1 : iblk0 V c 1 t = V c main_arg3 := by
    funext j
    show V c main_arg3 (((cfg0.win 1).blk t).view.emb j) = V c main_arg3 j
    refine congrArg (V c main_arg3) (funext fun a => Fin.ext ?_)
    match a with
    | ⟨0, _⟩ => show win0_1.index t (0 : Fin 2) * 128 + 1 * (j 0).val = (j 0).val; rw [e10]; omega
    | ⟨1, _⟩ => show win0_1.index t (1 : Fin 2) * 128 + 1 * (j 1).val = (j 1).val; rw [e11]; omega
  -- a weight array is its one block
  have r2 : iblk0 V c 2 t = V c main_arg4 := by
    funext j
    show V c main_arg4 (((cfg0.win 2).blk t).view.emb j) = V c main_arg4 j
    refine congrArg (V c main_arg4) (funext fun a => Fin.ext ?_)
    match a with
    | ⟨0, _⟩ => show win0_2.index t (0 : Fin 1) * 128 + 1 * (j 0).val = (j 0).val; rw [e20]; omega
  -- a weight array is its one block
  have r3 : iblk0 V c 3 t = V c main_arg5 := by
    funext j
    show V c main_arg5 (((cfg0.win 3).blk t).view.emb j) = V c main_arg5 j
    refine congrArg (V c main_arg5) (funext fun a => Fin.ext ?_)
    match a with
    | ⟨0, _⟩ => show win0_3.index t (0 : Fin 2) * 128 + 1 * (j 0).val = (j 0).val; rw [e30]; omega
    | ⟨1, _⟩ => show win0_3.index t (1 : Fin 2) * 128 + 1 * (j 1).val = (j 1).val; rw [e31]; omega
  -- a weight array is its one block
  have r4 : iblk0 V c 4 t = V c main_arg6 := by
    funext j
    show V c main_arg6 (((cfg0.win 4).blk t).view.emb j) = V c main_arg6 j
    refine congrArg (V c main_arg6) (funext fun a => Fin.ext ?_)
    match a with
    | ⟨0, _⟩ => show win0_4.index t (0 : Fin 1) * 128 + 1 * (j 0).val = (j 0).val; rw [e40]; omega
  -- the result's block keeps the column
  have r5 : (((cfg0.win 5).blk t).view.emb (ix2 p q)) 1 = q :=
    Fin.ext (by show win0_5.index t (1 : Fin 2) * 128 + 1 * q.val = q.val; rw [e51]; omega)
  unfold messageTab
  rw [r1, r2, r3, r4, r5]
  simp only [r0]

/-- An index of the result array is in point t's block iff each coordinate is in the block's range on its axis. -/
theorem mem_block (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v0).slice (win0_5.rect t)).set ↔ _
  rw [View.set_slice_whole, Rect.mem_set_unit]
  exact Iff.rfl

/-- Row r of the result array is in the block of point r / 2000: the 25 blocks cover the 50000 rows. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have ht : (i 0).val / 2000 < 25 := by omega
  obtain ⟨-, -, -, -, -, -, -, -, e50, e51⟩ := index_facts (⟨(i 0).val / 2000, ht⟩ : Fin cfg0.N)
  refine ⟨⟨(i 0).val / 2000, ht⟩, flush0_5 _, ?_⟩
  rw [mem_block]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e50]
    show (i 0).val / 2000 * 2000 ≤ (i 0).val ∧ (i 0).val < (i 0).val / 2000 * 2000 + 2000
    omega
  | ⟨1, _⟩ =>
    show win0_5.index ⟨(i 0).val / 2000, ht⟩ (1 : Fin 2) * 128 ≤ (i 1).val
      ∧ (i 1).val < win0_5.index ⟨(i 0).val / 2000, ht⟩ (1 : Fin 2) * 128 + 128
    rw [e51]
    omega

/-- After the first pipeline its result array is the message table of the node table and the four weight arrays as
    the pipeline found them. -/
theorem messages (c : Dev nD) :
    (dat0 (F := Ideal) V c).arrAt 5 cfg0.N
      = messageTab (V c main_arg0) (V c main_arg3) (V c main_arg4) (V c main_arg5) (V c main_arg6) :=
  (dat0 (F := Ideal) V c).arrAt_eq_of_cover 5 _ (fun t _ => flushed_eq V c t) covered

end Cert.KernelIdeal.MessageValue

end
-- ==== Proof.KernelMiddle.lean ====
/-
  Between the two pipelines: the messages summed along the edges, and what the second pipeline finds.

  The host operations between the pipelines send the message table M and the two edge-end arrays a, b to
      scatter-add (scatter-add 0 (col b) (gather M (col a))) (col a) (gather M (col b)),
  where col x is x with a negative entry moved up by 50000, laid out as a column. Nothing here looks inside a gather or
  a scatter-add: the reference applies the same composition to its own message table. The other arrays the second
  pipeline reads are arguments, which nothing before it writes.
-/
import proofs.«122592_j80221399155535_1_alg».proof.Proof.Gen.KernelIdeal.Frame
import Idealize.ShloMosaic.Lib.StableHlo.Run

set_option maxRecDepth 16384

noncomputable section

namespace Cert.KernelIdeal.Middle

open Cert.KernelIdeal Cert.KernelIdeal.Gen
open Idealize.ShloMosaic Idealize.ShloMosaic.TcCoe Idealize.SL.Sem Idealize.ShloMosaic.StableHlo

variable {F : FTy → Type} [FloatOps F]

/-- An edge-end array as a column of row numbers: a negative entry counts from the end of the 50000 rows. -/
def col (x : (⟨S600000, .i32⟩ : BufTy).Contents (Elt F)) : (⟨S600000x1, .i32⟩ : BufTy).Contents (Elt F) :=
  broadcastInDim S600000x1 ![0] bcast_S600000_S600000x1_0
    (select (cmpi .slt x (broadcastInDim S600000 ![] bcast_S_S600000 (constantI S_ 32 0#32)))
      (addi x (broadcastInDim S600000 ![] bcast_S_S600000 (constantI S_ 32 50000#32))) x)

/-- The messages summed along the edges, both ways. -/
def summed (M : (⟨S50000x128, .f32⟩ : BufTy).Contents (Elt F)) (a b : (⟨S600000, .i32⟩ : BufTy).Contents (Elt F)) :
    (⟨S50000x128, .f32⟩ : BufTy).Contents (Elt F) :=
  Host.scatterAdd scatter_S50000x128_S600000x1_S600000x128_1_0_0_1
    (Host.scatterAdd scatter_S50000x128_S600000x1_S600000x128_1_0_0_1
      (broadcastInDim S50000x128 ![] bcast_S_S50000x128 (constant S_ .f32 0x00000000#32))
      (col b) (Host.gather gather_S50000x128_S600000x1_S600000x128_1_0_n_n_0_1_1128 M (col a)))
    (col a) (Host.gather gather_S50000x128_S600000x1_S600000x128_1_0_n_n_0_1_1128 M (col b))

variable (m : (ℓ : Loc nD τ sig) → Buf (Elt F) ℓ) (ρ : Dev nD → PrngReg)

set_option maxHeartbeats 16000000 in
/-- The second pipeline finds, in its first operand, the first pipeline's result summed along the edges. -/
theorem entry_summed (c : Dev nD) :
    V2 m ρ c main_v29 = summed (V1 m ρ c main_v0) (m ((c : Thread nD τ).loc main_arg1)) (m ((c : Thread nD τ).loc main_arg2)) := by
  -- the first pipeline writes neither edge-end array
  have h1 : W1 m ρ c (Proc.devRef .tc main_arg1) = m ((c : Thread nD τ).loc main_arg1) := W1_of_ne m ρ c main_arg1 (by decide)
  have h2 : W1 m ρ c (Proc.devRef .tc main_arg2) = m ((c : Thread nD τ).loc main_arg2) := W1_of_ne m ρ c main_arg2 (by decide)
  show StableHlo.after hostOps1 (W1 m ρ c) (Proc.devRef .tc main_v29) = _
  after_results_simp
  rw [h1, h2]
  unfold summed col
  rfl

/-- The first pipeline's result array after it, as its proof data name it. -/
theorem exit_messages (c : Dev nD) : V1 m ρ c main_v0 = (dat0 (V0 m ρ) c).arrAt 5 cfg0.N := W1_arr m ρ c 5

/-- The node table as the second pipeline finds it: no host operation writes it, and the first pipeline only reads it. -/
theorem entry_arg0 (c : Dev nD) : V2 m ρ c main_arg0 = m ((c : Thread nD τ).loc main_arg0) :=
  calc W2 m ρ c (Proc.devRef .tc main_arg0)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
/-- An argument the first pipeline does not touch and no host operation writes. -/
theorem entry_arg7 (c : Dev nD) : V2 m ρ c main_arg7 = m ((c : Thread nD τ).loc main_arg7) :=
  calc W2 m ρ c (Proc.devRef .tc main_arg7)
    _ = W1 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := W1_of_ne m ρ c main_arg7 (by decide)
    _ = m ((c : Thread nD τ).loc main_arg7) := rfl
/-- An argument the first pipeline does not touch and no host operation writes. -/
theorem entry_arg8 (c : Dev nD) : V2 m ρ c main_arg8 = m ((c : Thread nD τ).loc main_arg8) :=
  calc W2 m ρ c (Proc.devRef .tc main_arg8)
    _ = W1 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := W1_of_ne m ρ c main_arg8 (by decide)
    _ = m ((c : Thread nD τ).loc main_arg8) := rfl
/-- An argument the first pipeline does not touch and no host operation writes. -/
theorem entry_arg9 (c : Dev nD) : V2 m ρ c main_arg9 = m ((c : Thread nD τ).loc main_arg9) :=
  calc W2 m ρ c (Proc.devRef .tc main_arg9)
    _ = W1 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := W1_of_ne m ρ c main_arg9 (by decide)
    _ = m ((c : Thread nD τ).loc main_arg9) := rfl

end Cert.KernelIdeal.Middle

end
-- ==== Proof.KernelUpdate.lean ====
/-
  The second pipeline's result is the updated node table.

  Its grid has 25 points; point t takes rows 2000 t … 2000 t + 1999 of the summed messages and of the node table, the
  two 128 x 384 weight arrays and the 2 x 384 bias array whole, and writes the same rows of the result. The body forms
  the two 384-wide pre-activation rows (a matrix product into a zero accumulator is the sum over the 128 coordinates;
  the bias row is row 0, respectively row 1, of the bias array), cuts each into its three 128-wide thirds and blends:
  what point t writes back is block t of the updated table, and the 25 blocks cover the 50000 rows.
-/
import proofs.«122592_j80221399155535_1_alg».proof.Proof.Gen.KernelIdeal.Frame
import proofs.«122592_j80221399155535_1_alg».proof.Proof.Spec
import proofs.«122592_j80221399155535_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.UpdateValue

open Cert.KernelIdeal Cert.KernelIdeal.Gen Cert.GatedGraph
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The body's arithmetic, entry by entry -/

/-- A 2000 x 384 block of pre-activations: the product of a 2000 x 128 block with a 128 x 384 weight array into the
    zero accumulator, plus the 1 x 384 bias row repeated down the 2000 rows. -/
def preact (x : FVec Ideal S2000x128 .f32) (W : FVec Ideal S128x384 .f32) (b : FVec Ideal S1x384 .f32) :
    FVec Ideal S2000x384 .f32 :=
  addf (matmul dot_S2000x128_S128x384_S2000x384_1_0_0_1_n_n none (truncf .bf16 x bitsLt_bf16_f32)
      (truncf .bf16 W bitsLt_bf16_f32) (constant S2000x384 .f32 0x00000000#32))
    (broadcastTo S2000x384 (shapeCast S1x384 (shapeCast S384 b shapeCasts_S1x384_S384) shapeCasts_S384_S1x384)
      broadcasts_S1x384_S2000x384)

/-- The bias row, flattened, restored and repeated down the rows, reads the row's own entry in every row. -/
theorem biasRows_apply (b : FVec Ideal S1x384 .f32) (p : Fin 2000) (j : Fin 384) :
    broadcastTo S2000x384 (shapeCast S1x384 (shapeCast S384 b shapeCasts_S1x384_S384) shapeCasts_S384_S1x384)
      broadcasts_S1x384_S2000x384 (ix2 p j) = b (ix2 0 j) := by
  refine (broadcastTo_apply _ _ (ix2 p j) (ix2 (0 : Fin 1) j) ?_).trans ?_
  · intro a
    match a with
    | ⟨0, _⟩ => rfl
    | ⟨1, _⟩ => rfl
  refine (shapeCast_apply _ _ (ix2 (0 : Fin 1) j) (ix1 j) ?_).trans ?_
  · rw [Shape.rowMajor_val_one, Shape.rowMajor_val_two]
    show j.val = 0 * 384 + j.val
    omega
  refine shapeCast_apply _ _ (ix1 j) (ix2 (0 : Fin 1) j) ?_
  rw [Shape.rowMajor_val_one, Shape.rowMajor_val_two]
  show 0 * 384 + j.val = j.val
  omega

/-- A pre-activation at row p, column j is the affine map of row p of the block. -/
theorem preact_apply (x : FVec Ideal S2000x128 .f32) (W : FVec Ideal S128x384 .f32) (b : FVec Ideal S1x384 .f32)
    (p : Fin 2000) (j : Fin 384) :
    preact x W b (ix2 p j) = affine (fun k => x (ix2 p k)) W (fun i => b (ix2 0 i)) j := by
  unfold preact affine
  rw [addf_apply, biasRows_apply]
  show FloatOps.matmul _ _ _ _ _ (ix2 p j) + _ = _
  rw [Cert.LibPlainDot.matmul_zero_apply _ rfl rfl rfl rfl rfl rfl]
  rfl

/-- Column q of each 128-wide third of a 384-wide block, read through the body's three slices. -/
theorem third0_apply (m : FVec Ideal S2000x384 .f32) (p : Fin 2000) (q : Fin 128) :
    extractStridedSlice S2000x128 ![0, 0] m slices_S2000x384_o0_0_S2000x128 (ix2 p q) = m (ix2 p (third0 q)) :=
  extractStridedSlice_apply _ _ _ (ix2 p q) (ix2 p (third0 q)) fun a =>
    match a with
    | ⟨0, _⟩ => by show p.val = 0 + p.val; omega
    | ⟨1, _⟩ => by show q.val = 0 + q.val; omega
theorem third1_apply (m : FVec Ideal S2000x384 .f32) (p : Fin 2000) (q : Fin 128) :
    extractStridedSlice S2000x128 ![0, 128] m slices_S2000x384_o0_128_S2000x128 (ix2 p q) = m (ix2 p (third1 q)) :=
  extractStridedSlice_apply _ _ _ (ix2 p q) (ix2 p (third1 q)) fun a =>
    match a with
    | ⟨0, _⟩ => by show p.val = 0 + p.val; omega
    | ⟨1, _⟩ => by show 128 + q.val = 128 + q.val; rfl
theorem third2_apply (m : FVec Ideal S2000x384 .f32) (p : Fin 2000) (q : Fin 128) :
    extractStridedSlice S2000x128 ![0, 256] m slices_S2000x384_o0_256_S2000x128 (ix2 p q) = m (ix2 p (third2 q)) :=
  extractStridedSlice_apply _ _ _ (ix2 p q) (ix2 p (third2 q)) fun a =>
    match a with
    | ⟨0, _⟩ => by show p.val = 0 + p.val; omega
    | ⟨1, _⟩ => by show 256 + q.val = 256 + q.val; rfl

/-- The gated blend of two 2000 x 384 pre-activation blocks with the 2000 x 128 block of old states: the update gate
    from the first thirds, the reset gate from the second, the candidate from the third thirds. -/
def gate (mx mh : FVec Ideal S2000x384 .f32) (x : FVec Ideal S2000x128 .f32) : FVec Ideal S2000x128 .f32 :=
  addf
    (mulf (logistic (addf (extractStridedSlice S2000x128 ![0, 0] mx slices_S2000x384_o0_0_S2000x128)
      (extractStridedSlice S2000x128 ![0, 0] mh slices_S2000x384_o0_0_S2000x128))) x)
    (mulf
      (subf (broadcast S2000x128 (Scalar.ofBits .f32 0x3F800000#32))
        (logistic (addf (extractStridedSlice S2000x128 ![0, 0] mx slices_S2000x384_o0_0_S2000x128)
          (extractStridedSlice S2000x128 ![0, 0] mh slices_S2000x384_o0_0_S2000x128))))
      (tanh (addf (extractStridedSlice S2000x128 ![0, 256] mx slices_S2000x384_o0_256_S2000x128)
        (mulf (logistic (addf (extractStridedSlice S2000x128 ![0, 128] mx slices_S2000x384_o0_128_S2000x128)
            (extractStridedSlice S2000x128 ![0, 128] mh slices_S2000x384_o0_128_S2000x128)))
          (extractStridedSlice S2000x128 ![0, 256] mh slices_S2000x384_o0_256_S2000x128)))))

/-- The gate at row p, column q is the blend of row p of the two pre-activation blocks and of the old states. -/
theorem gate_apply (mx mh : FVec Ideal S2000x384 .f32) (x : FVec Ideal S2000x128 .f32) (p : Fin 2000) (q : Fin 128) :
    gate mx mh x (ix2 p q) = blend (fun j => mx (ix2 p j)) (fun j => mh (ix2 p j)) (fun k => x (ix2 p k)) q := by
  unfold gate blend
  show Ideal.logistic (extractStridedSlice S2000x128 ![0, 0] mx slices_S2000x384_o0_0_S2000x128 (ix2 p q)
        + extractStridedSlice S2000x128 ![0, 0] mh slices_S2000x384_o0_0_S2000x128 (ix2 p q)) * x (ix2 p q)
      + (Ideal.ofBits .f32 0x3F800000#32
          - Ideal.logistic (extractStridedSlice S2000x128 ![0, 0] mx slices_S2000x384_o0_0_S2000x128 (ix2 p q)
            + extractStridedSlice S2000x128 ![0, 0] mh slices_S2000x384_o0_0_S2000x128 (ix2 p q)))
        * Ideal.tanh (extractStridedSlice S2000x128 ![0, 256] mx slices_S2000x384_o0_256_S2000x128 (ix2 p q)
          + Ideal.logistic (extractStridedSlice S2000x128 ![0, 128] mx slices_S2000x384_o0_128_S2000x128 (ix2 p q)
              + extractStridedSlice S2000x128 ![0, 128] mh slices_S2000x384_o0_128_S2000x128 (ix2 p q))
            * extractStridedSlice S2000x128 ![0, 256] mh slices_S2000x384_o0_256_S2000x128 (ix2 p q)) = _
  rw [third0_apply mx, third0_apply mh, third1_apply mx, third1_apply mh, third2_apply mx, third2_apply mh]

/-- The body's result is the gate of the two pre-activation blocks (the first read through a shape cast to its own
    shape): the same operations in the same order. -/
theorem pay_eq (v0 : Vec Ideal S2000x128 .f32) (v3 : Vec Ideal S128x384 .f32) (v6 : Vec Ideal S1x384 .f32)
    (v11 : Vec Ideal S2000x128 .f32) (v13 : Vec Ideal S128x384 .f32) (v16 : Vec Ideal S1x384 .f32) :
    k1_pay1 v0 v3 v6 v11 v13 v16
      = gate (preact (shapeCast S2000x128 v0 shapeCasts_S2000x128_S2000x128) v3 v6) (preact v11 v13 v16) v11 := rfl

/-- THE BODY'S RESULT AT ROW p, COLUMN q: the update of row p of the two 2000 x 128 blocks, the weight arrays whole
    and the two bias rows. -/
theorem pay_apply (v0 : Vec Ideal S2000x128 .f32) (v3 : Vec Ideal S128x384 .f32) (v6 : Vec Ideal S1x384 .f32)
    (v11 : Vec Ideal S2000x128 .f32) (v13 : Vec Ideal S128x384 .f32) (v16 : Vec Ideal S1x384 .f32)
    (p : Fin 2000) (q : Fin 128) :
    k1_pay1 v0 v3 v6 v11 v13 v16 (ix2 p q)
      = update (fun k => v0 (ix2 p k)) (fun k => v11 (ix2 p k)) v3 v13 (fun j => v6 (ix2 0 j)) (fun j => v16 (ix2 0 j)) q := by
  rw [pay_eq, shapeCast_self, gate_apply]
  unfold update
  congr 1
  · funext j; exact preact_apply v0 v3 v6 p j
  · funext j; exact preact_apply v11 v13 v16 p j

/-! ## What a point writes back -/

theorem hz : (![0, 0] : Fin 2 → Nat) = fun _ => 0 := funext fun a => by fin_cases a <;> rfl

/-- The blocks' index maps at each of the 25 points: the two row-blocked inputs and the output sit at block (t, 0),
    the three whole arrays at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The grid has 25 points. -/
theorem lt25 (t : Fin cfg1.N) : t.val < 25 := t.isLt

/-- Row p of point t's block is row 2000 t + p of the 50000-row arrays. -/
def rowOf (t : Fin cfg1.N) (p : Fin 2000) : Fin 50000 :=
  ⟨t.val * 2000 + p.val, by have := lt25 t; have := p.isLt; omega⟩

/-- Point t's block of the summed messages, at row p: row 2000 t + p of the array. -/
theorem msgBlock_apply (c : Dev nD) (t : Fin cfg1.N) (p : Fin 2000) (k : Fin 128) :
    iblk1 V c 0 t (ix2 p k) = V c main_v29 (ix2 (rowOf t p) k) := by
  show V c main_v29 (((cfg1.win 0).blk t).view.emb (ix2 p k)) = _
  obtain ⟨e0, e1, -⟩ := idx_facts t
  refine congrArg (V c main_v29) (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 128 + 1 * k.val = k.val; rw [e1]; omega

/-- Point t's block of the node table, at row p: row 2000 t + p of the array. -/
theorem nodeBlock_apply (c : Dev nD) (t : Fin cfg1.N) (p : Fin 2000) (k : Fin 128) :
    iblk1 V c 1 t (ix2 p k) = V c main_arg0 (ix2 (rowOf t p) k) := by
  show V c main_arg0 (((cfg1.win 1).blk t).view.emb (ix2 p k)) = _
  obtain ⟨-, -, e0, e1, -⟩ := idx_facts t
  refine congrArg (V c main_arg0) (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 128 + 1 * k.val = k.val; rw [e1]; omega

/-- Each weight array is one block: every point reads it whole. -/
theorem gkBlock_eq (c : Dev nD) (t : Fin cfg1.N) : iblk1 V c 2 t = V c main_arg7 := by
  funext y
  show V c main_arg7 (((cfg1.win 2).blk t).view.emb y) = V c main_arg7 y
  obtain ⟨-, -, -, -, e0, e1, -⟩ := idx_facts t
  refine congrArg (V c main_arg7) (funext fun a => Fin.ext ?_)
  match a with
  | ⟨0, _⟩ => show win1_2.index t (0 : Fin 2) * 128 + 1 * (y 0).val = (y 0).val; rw [e0]; omega
  | ⟨1, _⟩ => show win1_2.index t (1 : Fin 2) * 384 + 1 * (y 1).val = (y 1).val; rw [e1]; omega
theorem grBlock_eq (c : Dev nD) (t : Fin cfg1.N) : iblk1 V c 3 t = V c main_arg8 := by
  funext y
  show V c main_arg8 (((cfg1.win 3).blk t).view.emb y) = V c main_arg8 y
  obtain ⟨-, -, -, -, -, -, e0, e1, -⟩ := idx_facts t
  refine congrArg (V c main_arg8) (funext fun a => Fin.ext ?_)
  match a with
  | ⟨0, _⟩ => show win1_3.index t (0 : Fin 2) * 128 + 1 * (y 0).val = (y 0).val; rw [e0]; omega
  | ⟨1, _⟩ => show win1_3.index t (1 : Fin 2) * 384 + 1 * (y 1).val = (y 1).val; rw [e1]; omega

/-- The bias array is one block too; the body loads its row 0 and its row 1, each as a 1 x 384 vector. -/
theorem bias0_apply (c : Dev nD) (t : Fin cfg1.N) (j : Fin 384) :
    View.ld (iblk1 V c 4 t) r1_2 (ix2 (0 : Fin 1) j) = V c main_arg9 (ix2 (0 : Fin 2) j) := by
  show V c main_arg9 (((cfg1.win 4).blk t).view.emb (r1_2.emb (ix2 (0 : Fin 1) j))) = _
  obtain ⟨-, -, -, -, -, -, -, -, e0, e1, -⟩ := idx_facts t
  refine congrArg (V c main_arg9) (funext fun a => Fin.ext ?_)
  match a with
  | ⟨0, _⟩ => show win1_4.index t (0 : Fin 2) * 2 + 1 * (0 + 1 * 0) = 0; rw [e0]
  | ⟨1, _⟩ => show win1_4.index t (1 : Fin 2) * 384 + 1 * (0 + 1 * j.val) = j.val; rw [e1]; omega
theorem bias1_apply (c : Dev nD) (t : Fin cfg1.N) (j : Fin 384) :
    View.ld (iblk1 V c 4 t) r1_3 (ix2 (0 : Fin 1) j) = V c main_arg9 (ix2 (1 : Fin 2) j) := by
  show V c main_arg9 (((cfg1.win 4).blk t).view.emb (r1_3.emb (ix2 (0 : Fin 1) j))) = _
  obtain ⟨-, -, -, -, -, -, -, -, e0, e1, -⟩ := idx_facts t
  refine congrArg (V c main_arg9) (funext fun a => Fin.ext ?_)
  match a with
  | ⟨0, _⟩ => show win1_4.index t (0 : Fin 2) * 2 + 1 * (1 + 1 * 0) = 1; rw [e0]
  | ⟨1, _⟩ => show win1_4.index t (1 : Fin 2) * 384 + 1 * (0 + 1 * j.val) = j.val; rw [e1]; omega

/-- Entry (p, q) of the output's block at point t is entry (2000 t + p, q) of the result array. -/
theorem outBlock_emb (t : Fin cfg1.N) (p : Fin 2000) (q : Fin 128) :
    ((cfg1.win 5).blk t).view.emb (ix2 p q) = ix2 (rowOf t p) q := by
  obtain ⟨-, -, -, -, -, -, -, -, -, -, e0, e1⟩ := idx_facts t
  funext a; apply Fin.ext
  match a with
  | ⟨0, _⟩ => show win1_5.index t (0 : Fin 2) * 2000 + 1 * p.val = t.val * 2000 + p.val; rw [e0]; omega
  | ⟨1, _⟩ => show win1_5.index t (1 : Fin 2) * 128 + 1 * q.val = q.val; rw [e1]; omega

/-- WHAT POINT t WRITES BACK is block t of the updated table of the arrays as the pipeline found them. -/
theorem flushed_eq (c : Dev nD) (t : Fin cfg1.N) :
    (dat1 (F := Ideal) V c).flushed 5 t = ((cfg1.win 5).blk t).view.read (Elt Ideal)
      (updateTab (V c main_v29) (V c main_arg0) (V c main_arg7) (V c main_arg8) (V c main_arg9)) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x384) hz]
  funext j
  obtain ⟨p, q, rfl⟩ : ∃ p q, j = ix2 p q := ⟨j 0, j 1, eq_ix2 j⟩
  show k1_pay1 (iblk1 V c 0 t) (iblk1 V c 2 t) (View.ld (iblk1 V c 4 t) r1_2) (iblk1 V c 1 t) (iblk1 V c 3 t)
      (View.ld (iblk1 V c 4 t) r1_3) (ix2 p q)
    = updateTab (V c main_v29) (V c main_arg0) (V c main_arg7) (V c main_arg8) (V c main_arg9)
        (((cfg1.win 5).blk t).view.emb (ix2 p q))
  rw [pay_apply, outBlock_emb, gkBlock_eq, grBlock_eq]
  show _ = update (fun k => V c main_v29 (ix2 (rowOf t p) k)) (fun k => V c main_arg0 (ix2 (rowOf t p) k))
      (V c main_arg7) (V c main_arg8) (fun j => V c main_arg9 (ix2 (0 : Fin 2) j))
      (fun j => V c main_arg9 (ix2 (1 : Fin 2) j)) q
  rw [funext (msgBlock_apply V c t p), funext (nodeBlock_apply V c t p), funext (bias0_apply V c t),
    funext (bias1_apply V c t)]

/-! ## The 25 blocks cover the 50000 rows -/

/-- An index of the result array is in point t's block iff each coordinate is in the block's range on its axis. -/
theorem mem_outBlock (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v30).slice (win1_5.rect t)).set ↔ _
  rw [View.set_slice_whole, Rect.mem_set_unit]
  exact Iff.rfl

/-- Row r of the result array is in the block of point r / 2000, which writes back. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have ht : (i 0).val / 2000 < cfg1.N := by show _ < 25; omega
  obtain ⟨-, -, -, -, -, -, -, -, -, -, e0, e1⟩ := idx_facts ⟨(i 0).val / 2000, ht⟩
  refine ⟨⟨(i 0).val / 2000, ht⟩, flush1_5 _, ?_⟩
  rw [mem_outBlock]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, ht⟩ (1 : Fin 2) * 128 ≤ (i 1).val
      ∧ (i 1).val < win1_5.index ⟨(i 0).val / 2000, ht⟩ (1 : Fin 2) * 128 + 128
    rw [e1]; omega

/-- After the second pipeline its result array is the updated table of the summed messages, the node table, the two
    weight arrays and the bias array as the pipeline found them. -/
theorem updated (c : Dev nD) :
    (dat1 (F := Ideal) V c).arrAt 5 cfg1.N
      = updateTab (V c main_v29) (V c main_arg0) (V c main_arg7) (V c main_arg8) (V c main_arg9) := by
  exact (dat1 V c).arrAt_eq_of_cover 5 _ (fun t _ => flushed_eq V c t) cover

end Cert.KernelIdeal.UpdateValue

end
-- ==== Proof.ReferenceStages.lean ====
/-
  The reference, stage by stage, is the same three steps.

  Its first eight operations make the message table (a product of the whole node table with a 128 x 128 array is, row
  by row, the sum over the 128 coordinates; a bias vector broadcast over the rows adds its entry of the column); the
  gathers and scatter-adds that follow are the composition `summed` of that table and the two edge-end arrays, not
  opened; the rest makes the two 384-wide pre-activations, cuts them in thirds and blends. The reference spells the
  logistic function as 1 / (1 + exp (-x)), which on the extended reals is the logistic function's definition.
-/
import proofs.«122592_j80221399155535_1_alg».proof.Proof.Gen.ReferenceIdeal.Read
import proofs.«122592_j80221399155535_1_alg».proof.Proof.Spec
import proofs.«122592_j80221399155535_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.ReferenceIdeal.StageValue

open Cert.ReferenceIdeal Cert.ReferenceIdeal.Gen Cert.ReferenceIdeal.Read Cert.GatedGraph
open Idealize.ShloMosaic Idealize.ShloMosaic.TcCoe Idealize.ShloMosaic.ValueIdx Idealize.SL.Sem

/-- An edge-end array as a column of row numbers: a negative entry counts from the end of the 50000 rows. -/
def col {F : FTy → Type} [FloatOps F] (x : (⟨S600000, .i32⟩ : BufTy).Contents (Elt F)) : (⟨S600000x1, .i32⟩ : BufTy).Contents (Elt F) :=
  broadcastInDim S600000x1 ![0] bcast_S600000_S600000x1_0
    (select (cmpi .slt x (broadcastInDim S600000 ![] bcast_S_S600000 (constantI S_ 32 0#32)))
      (addi x (broadcastInDim S600000 ![] bcast_S_S600000 (constantI S_ 32 50000#32))) x)

/-- The messages summed along the edges, both ways. -/
def summed {F : FTy → Type} [FloatOps F] (M : (⟨S50000x128, .f32⟩ : BufTy).Contents (Elt F)) (a b : (⟨S600000, .i32⟩ : BufTy).Contents (Elt F)) :
    (⟨S50000x128, .f32⟩ : BufTy).Contents (Elt F) :=
  Host.scatterAdd scatter_S50000x128_S600000x1_S600000x128_1_0_0_1
    (Host.scatterAdd scatter_S50000x128_S600000x1_S600000x128_1_0_0_1
      (broadcastInDim S50000x128 ![] bcast_S_S50000x128 (constant S_ .f32 0x00000000#32))
      (col b) (Host.gather gather_S50000x128_S600000x1_S600000x128_1_0_n_n_0_1_1128 M (col a)))
    (col a) (Host.gather gather_S50000x128_S600000x1_S600000x128_1_0_n_n_0_1_1128 M (col b))

variable (x0 : (⟨S50000x128, .f32⟩ : BufTy).Contents (Elt Ideal)) (x1 x2 : (⟨S600000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 x8 : (⟨S128x384, .f32⟩ : BufTy).Contents (Elt Ideal)) (x9 : (⟨S2x384, .f32⟩ : BufTy).Contents (Elt Ideal))

/-! ## The message table, entry by entry -/

/-- The left operand of the first product is read at row p, coordinate j. -/
theorem lidx_v0_at (p : Fin 50000) (k j : Fin 128) : lidx_main_v0 (ix2 p k) j = ix2 p j :=
  funext fun a => Fin.ext (by match a with | ⟨0, _⟩ => rfl | ⟨1, _⟩ => rfl)
/-- The right operand of the first product is read at coordinate j, column k. -/
theorem ridx_v0_at (p : Fin 50000) (k j : Fin 128) : ridx_main_v0 (ix2 p k) j = ix2 j k :=
  funext fun a => Fin.ext (by match a with | ⟨0, _⟩ => rfl | ⟨1, _⟩ => rfl)
/-- The left operand of the second product is read at row p, coordinate k. -/
theorem lidx_v4_at (p : Fin 50000) (q k : Fin 128) : lidx_main_v4 (ix2 p q) k = ix2 p k :=
  funext fun a => Fin.ext (by match a with | ⟨0, _⟩ => rfl | ⟨1, _⟩ => rfl)
/-- The right operand of the second product is read at coordinate k, column q. -/
theorem ridx_v4_at (p : Fin 50000) (q k : Fin 128) : ridx_main_v4 (ix2 p q) k = ix2 k q :=
  funext fun a => Fin.ext (by match a with | ⟨0, _⟩ => rfl | ⟨1, _⟩ => rfl)

/-- The first product at (p, k) is the sum over the 128 coordinates of row p. -/
theorem v0_at (p : Fin 50000) (k : Fin 128) :
    val_main_v0 (F := Ideal) x0 x3 (ix2 p k) = ∑ j : Fin 128, x0 (ix2 p j) * x3 (ix2 j k) := by
  rw [val_main_v0_apply]
  exact Finset.sum_congr rfl fun j _ => by rw [lidx_v0_at, ridx_v0_at]

/-- The first bias vector, broadcast over the rows, has at (p, k) its entry k. -/
theorem v2_at (p : Fin 50000) (k : Fin 128) : val_main_v2 (F := Ideal) x4 (ix2 p k) = x4 (ix1 k) := by
  rw [val_main_v2_apply, val_main_v1_apply]
  exact congrArg x4 (funext fun a => Fin.ext (by match a with | ⟨0, _⟩ => rfl))

/-- The first affine map of row p. -/
theorem v3_at (p : Fin 50000) (k : Fin 128) :
    val_main_v3 (F := Ideal) x0 x3 x4 (ix2 p k) = affine (fun j => x0 (ix2 p j)) x3 (fun j => x4 (ix1 j)) k := by
  rw [val_main_v3_apply, v0_at, v2_at]
  rfl

/-- The second product at (p, q) is the sum over the 128 coordinates of the first affine map of row p. -/
theorem v4_at (p : Fin 50000) (q : Fin 128) :
    val_main_v4 (F := Ideal) x0 x3 x4 x5 (ix2 p q)
      = ∑ k : Fin 128, affine (fun j => x0 (ix2 p j)) x3 (fun j => x4 (ix1 j)) k * x5 (ix2 k q) := by
  rw [val_main_v4_apply]
  exact Finset.sum_congr rfl fun k _ => by rw [lidx_v4_at, ridx_v4_at, v3_at]

/-- The second bias vector, broadcast over the rows, has at (p, q) its entry q. -/
theorem v6_at (p : Fin 50000) (q : Fin 128) : val_main_v6 (F := Ideal) x6 (ix2 p q) = x6 (ix1 q) := by
  rw [val_main_v6_apply, val_main_v5_apply]
  exact congrArg x6 (funext fun a => Fin.ext (by match a with | ⟨0, _⟩ => rfl))

/-- The eighth stage at (p, q) is the message of row p at q. -/
theorem messages_at (p : Fin 50000) (q : Fin 128) :
    val_main_v7 (F := Ideal) x0 x3 x4 x5 x6 (ix2 p q) = message (fun k => x0 (ix2 p k)) x3 x4 x5 x6 q := by
  rw [val_main_v7_apply, v4_at, v6_at]
  rfl

/-- The eighth stage is the message table. -/
theorem messages_eq : val_main_v7 (F := Ideal) x0 x3 x4 x5 x6 = messageTab x0 x3 x4 x5 x6 := by
  funext i
  obtain ⟨p, q, rfl⟩ : ∃ (p : Fin 50000) (q : Fin 128), i = ix2 p q := ⟨i 0, i 1, eq_ix2 i⟩
  exact messages_at x0 x3 x4 x5 x6 p q

/-! ## The summed messages: the same composition, nothing opened -/

/-- The four index columns the reference builds are the column of its edge-end array. -/
theorem col_v14 : val_main_v14 (F := Ideal) x1 = col x1 := by
  unfold val_main_v14 val_main_v13 val_main_v10 val_main_v12 val_main_v9 val_main_v11 val_main_c val_main_c_0 col
  rfl
theorem col_v21 : val_main_v21 (F := Ideal) x2 = col x2 := by
  unfold val_main_v21 val_main_v20 val_main_v17 val_main_v19 val_main_v16 val_main_v18 val_main_c_1 val_main_c_2 col
  rfl
theorem col_v28 : val_main_v28 (F := Ideal) x2 = col x2 := by
  unfold val_main_v28 val_main_v27 val_main_v24 val_main_v26 val_main_v23 val_main_v25 val_main_c_3 val_main_c_4 col
  rfl
theorem col_v35 : val_main_v35 (F := Ideal) x1 = col x1 := by
  unfold val_main_v35 val_main_v34 val_main_v31 val_main_v33 val_main_v30 val_main_v32 val_main_c_5 val_main_c_6 col
  rfl

/-- The stage after the second scatter-add is the composition `summed` of the message stage and the edge-end arrays. -/
theorem summed_eq : val_main_v36 (F := Ideal) x0 x1 x2 x3 x4 x5 x6 = summed (val_main_v7 (F := Ideal) x0 x3 x4 x5 x6) x1 x2 := by
  unfold val_main_v36 val_main_v22 val_main_v15 val_main_v29
  rw [col_v14, col_v21, col_v28, col_v35]
  unfold val_main_v8 val_main_cst summed
  rfl

/-! ## The update, entry by entry -/

/-- The left operand of a 384-wide product is read at row p, coordinate k. -/
theorem lidx_v37_at (p : Fin 50000) (r : Fin 384) (k : Fin 128) : lidx_main_v37 (ix2 p r) k = ix2 p k :=
  funext fun a => Fin.ext (by match a with | ⟨0, _⟩ => rfl | ⟨1, _⟩ => rfl)
/-- The right operand of a 384-wide product is read at coordinate k, column r. -/
theorem ridx_v37_at (p : Fin 50000) (r : Fin 384) (k : Fin 128) : ridx_main_v37 (ix2 p r) k = ix2 k r :=
  funext fun a => Fin.ext (by match a with | ⟨0, _⟩ => rfl | ⟨1, _⟩ => rfl)
/-- The same for the product of the old states. -/
theorem lidx_v43_at (p : Fin 50000) (r : Fin 384) (k : Fin 128) : lidx_main_v43 (ix2 p r) k = ix2 p k :=
  funext fun a => Fin.ext (by match a with | ⟨0, _⟩ => rfl | ⟨1, _⟩ => rfl)
theorem ridx_v43_at (p : Fin 50000) (r : Fin 384) (k : Fin 128) : ridx_main_v43 (ix2 p r) k = ix2 k r :=
  funext fun a => Fin.ext (by match a with | ⟨0, _⟩ => rfl | ⟨1, _⟩ => rfl)

/-- The product of the summed messages with the first weight table, at (p, r). -/
theorem v37_at (p : Fin 50000) (r : Fin 384) :
    val_main_v37 (F := Ideal) x0 x1 x2 x3 x4 x5 x6 x7 (ix2 p r) = ∑ k : Fin 128, val_main_v36 (F := Ideal) x0 x1 x2 x3 x4 x5 x6 (ix2 p k) * x7 (ix2 k r) := by
  rw [val_main_v37_apply]
  exact Finset.sum_congr rfl fun k _ => by rw [lidx_v37_at, ridx_v37_at]

/-- The product of the old states with the second weight table, at (p, r). -/
theorem v43_at (p : Fin 50000) (r : Fin 384) :
    val_main_v43 (F := Ideal) x0 x8 (ix2 p r) = ∑ k : Fin 128, x0 (ix2 p k) * x8 (ix2 k r) := by
  rw [val_main_v43_apply]
  exact Finset.sum_congr rfl fun k _ => by rw [lidx_v43_at, ridx_v43_at]

/-- The first row of the bias array, cut out, flattened and broadcast over the rows, has at (p, r) its entry r. -/
theorem v41_at (p : Fin 50000) (r : Fin 384) : val_main_v41 (F := Ideal) x9 (ix2 p r) = x9 (ix2 (0 : Fin 2) r) := by
  rw [val_main_v41_apply, val_main_v40_apply, val_main_v39_apply, val_main_v38_apply]
  exact congrArg x9 (funext fun a => Fin.ext (by
    match a with
    | ⟨0, _⟩ => rfl
    | ⟨1, _⟩ => show r.val % 384 = r.val; exact Nat.mod_eq_of_lt r.isLt))

/-- The second row of the bias array likewise. -/
theorem v47_at (p : Fin 50000) (r : Fin 384) : val_main_v47 (F := Ideal) x9 (ix2 p r) = x9 (ix2 (1 : Fin 2) r) := by
  rw [val_main_v47_apply, val_main_v46_apply, val_main_v45_apply, val_main_v44_apply]
  exact congrArg x9 (funext fun a => Fin.ext (by
    match a with
    | ⟨0, _⟩ => rfl
    | ⟨1, _⟩ => show r.val % 384 = r.val; exact Nat.mod_eq_of_lt r.isLt))

/-- The pre-activation from the summed messages: the affine map of row p of the summed stage. -/
theorem v42_at (p : Fin 50000) (r : Fin 384) :
    val_main_v42 (F := Ideal) x0 x1 x2 x3 x4 x5 x6 x7 x9 (ix2 p r) = (affine (fun k => val_main_v36 (F := Ideal) x0 x1 x2 x3 x4 x5 x6 (ix2 p k)) x7 (fun s => x9 (ix2 (0 : Fin 2) s))) r := by
  rw [val_main_v42_apply, v37_at, v41_at]
  rfl

/-- The pre-activation from the old state: the affine map of row p of the node table. -/
theorem v48_at (p : Fin 50000) (r : Fin 384) :
    val_main_v48 (F := Ideal) x0 x8 x9 (ix2 p r) = (affine (fun k => x0 (ix2 p k)) x8 (fun s => x9 (ix2 (1 : Fin 2) s))) r := by
  rw [val_main_v48_apply, v43_at, v47_at]
  rfl

/-- The three slices of a 384-wide stage read its three thirds. -/
theorem idx_v49_at (p : Fin 50000) (q : Fin 128) : idx_main_v49 (ix2 p q) = ix2 p (third0 q) :=
  funext fun a => Fin.ext (by match a with | ⟨0, _⟩ => rfl | ⟨1, _⟩ => rfl)
theorem idx_v50_at (p : Fin 50000) (q : Fin 128) : idx_main_v50 (ix2 p q) = ix2 p (third1 q) :=
  funext fun a => Fin.ext (by match a with | ⟨0, _⟩ => rfl | ⟨1, _⟩ => rfl)
theorem idx_v51_at (p : Fin 50000) (q : Fin 128) : idx_main_v51 (ix2 p q) = ix2 p (third2 q) :=
  funext fun a => Fin.ext (by match a with | ⟨0, _⟩ => rfl | ⟨1, _⟩ => rfl)
theorem idx_v52_at (p : Fin 50000) (q : Fin 128) : idx_main_v52 (ix2 p q) = ix2 p (third0 q) :=
  funext fun a => Fin.ext (by match a with | ⟨0, _⟩ => rfl | ⟨1, _⟩ => rfl)
theorem idx_v53_at (p : Fin 50000) (q : Fin 128) : idx_main_v53 (ix2 p q) = ix2 p (third1 q) :=
  funext fun a => Fin.ext (by match a with | ⟨0, _⟩ => rfl | ⟨1, _⟩ => rfl)
theorem idx_v54_at (p : Fin 50000) (q : Fin 128) : idx_main_v54 (ix2 p q) = ix2 p (third2 q) :=
  funext fun a => Fin.ext (by match a with | ⟨0, _⟩ => rfl | ⟨1, _⟩ => rfl)

/-- The word 0x3F800000 is the number one. -/
theorem one_word : Ideal.ofBits .f32 0x3F800000#32 = (1 : EReal) := by
  simp [Ideal.ofBits, Ideal.ieee, -EReal.coe_mul]; norm_num

/-- One over one plus the exponential of the negative, both ones the word of 1.0, is the logistic function. -/
theorem logistic_spelled (x : EReal) :
    FloatOps.hostDivf (F := Ideal) (φ := .f32) (Ideal.ofBits .f32 0x3F800000#32)
      (FloatOps.addf (F := Ideal) (φ := .f32) (Ideal.ofBits .f32 0x3F800000#32)
        (FloatOps.hostUnary (F := Ideal) (φ := .f32) .exp (FloatOps.hostNegf (F := Ideal) (φ := .f32) x)))
      = Ideal.logistic x := by
  rw [one_word]
  rfl

/-- The sum of the first thirds of the two pre-activations. -/
theorem v55_at (p : Fin 50000) (q : Fin 128) :
    val_main_v55 (F := Ideal) x0 x1 x2 x3 x4 x5 x6 x7 x8 x9 (ix2 p q) = (affine (fun k => val_main_v36 (F := Ideal) x0 x1 x2 x3 x4 x5 x6 (ix2 p k)) x7 (fun s => x9 (ix2 (0 : Fin 2) s))) (third0 q) + (affine (fun k => x0 (ix2 p k)) x8 (fun s => x9 (ix2 (1 : Fin 2) s))) (third0 q) := by
  rw [val_main_v55_apply, val_main_v49_apply, val_main_v52_apply, idx_v49_at, idx_v52_at, v42_at, v48_at]
  rfl

/-- The sum of the second thirds of the two pre-activations. -/
theorem v62_at (p : Fin 50000) (q : Fin 128) :
    val_main_v62 (F := Ideal) x0 x1 x2 x3 x4 x5 x6 x7 x8 x9 (ix2 p q) = (affine (fun k => val_main_v36 (F := Ideal) x0 x1 x2 x3 x4 x5 x6 (ix2 p k)) x7 (fun s => x9 (ix2 (0 : Fin 2) s))) (third1 q) + (affine (fun k => x0 (ix2 p k)) x8 (fun s => x9 (ix2 (1 : Fin 2) s))) (third1 q) := by
  rw [val_main_v62_apply, val_main_v50_apply, val_main_v53_apply, idx_v50_at, idx_v53_at, v42_at, v48_at]
  rfl

/-- The update gate z. -/
theorem v61_at (p : Fin 50000) (q : Fin 128) :
    val_main_v61 (F := Ideal) x0 x1 x2 x3 x4 x5 x6 x7 x8 x9 (ix2 p q) = Ideal.logistic ((affine (fun k => val_main_v36 (F := Ideal) x0 x1 x2 x3 x4 x5 x6 (ix2 p k)) x7 (fun s => x9 (ix2 (0 : Fin 2) s))) (third0 q) + (affine (fun k => x0 (ix2 p k)) x8 (fun s => x9 (ix2 (1 : Fin 2) s))) (third0 q)) := by
  rw [val_main_v61_apply, val_main_v60_apply, val_main_cst_8_apply, val_main_v59_apply, val_main_v58_apply,
    val_main_cst_7_apply, val_main_v57_apply, val_main_v56_apply, v55_at]
  exact logistic_spelled _

/-- The reset gate r. -/
theorem v68_at (p : Fin 50000) (q : Fin 128) :
    val_main_v68 (F := Ideal) x0 x1 x2 x3 x4 x5 x6 x7 x8 x9 (ix2 p q) = Ideal.logistic ((affine (fun k => val_main_v36 (F := Ideal) x0 x1 x2 x3 x4 x5 x6 (ix2 p k)) x7 (fun s => x9 (ix2 (0 : Fin 2) s))) (third1 q) + (affine (fun k => x0 (ix2 p k)) x8 (fun s => x9 (ix2 (1 : Fin 2) s))) (third1 q)) := by
  rw [val_main_v68_apply, val_main_v67_apply, val_main_cst_10_apply, val_main_v66_apply, val_main_v65_apply,
    val_main_cst_9_apply, val_main_v64_apply, val_main_v63_apply, v62_at]
  exact logistic_spelled _

/-- The candidate h. -/
theorem v71_at (p : Fin 50000) (q : Fin 128) :
    val_main_v71 (F := Ideal) x0 x1 x2 x3 x4 x5 x6 x7 x8 x9 (ix2 p q) = Ideal.tanh ((affine (fun k => val_main_v36 (F := Ideal) x0 x1 x2 x3 x4 x5 x6 (ix2 p k)) x7 (fun s => x9 (ix2 (0 : Fin 2) s))) (third2 q) + Ideal.logistic ((affine (fun k => val_main_v36 (F := Ideal) x0 x1 x2 x3 x4 x5 x6 (ix2 p k)) x7 (fun s => x9 (ix2 (0 : Fin 2) s))) (third1 q) + (affine (fun k => x0 (ix2 p k)) x8 (fun s => x9 (ix2 (1 : Fin 2) s))) (third1 q)) * (affine (fun k => x0 (ix2 p k)) x8 (fun s => x9 (ix2 (1 : Fin 2) s))) (third2 q)) := by
  rw [val_main_v71_apply, val_main_v70_apply, val_main_v51_apply, idx_v51_at, v42_at, val_main_v69_apply, v68_at,
    val_main_v54_apply, idx_v54_at, v48_at, Ideal.hostUnary_tanh_def, Ideal.addf_def, Ideal.mulf_def]

/-- One minus the update gate, the one the unevaluated word of 1.0. -/
theorem v74_at (p : Fin 50000) (q : Fin 128) :
    val_main_v74 (F := Ideal) x0 x1 x2 x3 x4 x5 x6 x7 x8 x9 (ix2 p q) = Ideal.ofBits .f32 0x3F800000#32 - Ideal.logistic ((affine (fun k => val_main_v36 (F := Ideal) x0 x1 x2 x3 x4 x5 x6 (ix2 p k)) x7 (fun s => x9 (ix2 (0 : Fin 2) s))) (third0 q) + (affine (fun k => x0 (ix2 p k)) x8 (fun s => x9 (ix2 (1 : Fin 2) s))) (third0 q)) := by
  rw [val_main_v74_apply, val_main_v73_apply, val_main_cst_11_apply, v61_at]
  rfl

/-- The last stage at (p, q) is the update of row p at q. -/
theorem result_at (p : Fin 50000) (q : Fin 128) :
    val_main_v76 (F := Ideal) x0 x1 x2 x3 x4 x5 x6 x7 x8 x9 (ix2 p q)
      = update (fun k => val_main_v36 (F := Ideal) x0 x1 x2 x3 x4 x5 x6 (ix2 p k)) (fun k => x0 (ix2 p k)) x7 x8
          (fun s => x9 (ix2 (0 : Fin 2) s)) (fun s => x9 (ix2 (1 : Fin 2) s)) q := by
  rw [val_main_v76_apply, val_main_v72_apply, v61_at, val_main_v75_apply, v74_at, v71_at]
  rfl

/-- The last stage is the updated table of the summed stage, the node table, the two weight arrays and the bias array. -/
theorem result_eq : val_main_v76 (F := Ideal) x0 x1 x2 x3 x4 x5 x6 x7 x8 x9
    = updateTab (val_main_v36 (F := Ideal) x0 x1 x2 x3 x4 x5 x6) x0 x7 x8 x9 := by
  funext i
  obtain ⟨p, q, rfl⟩ : ∃ (p : Fin 50000) (q : Fin 128), i = ix2 p q := ⟨i 0, i 1, eq_ix2 i⟩
  exact result_at x0 x1 x2 x3 x4 x5 x6 x7 x8 x9 p q

end Cert.ReferenceIdeal.StageValue

end
-- ==== Proof.lean ====
/-
  One step of a gated graph update computed by two pipelines agrees, over the extended reals, with the reference.

  The first pipeline leaves the message table  m = (x W1 + b1) W2 + b2,  row by row; the host operations between the
  pipelines sum the messages along the edges, both ways (the same composition of gathers and scatter-adds the
  reference applies to its own message table, carried here as one function and never opened); the second pipeline
  leaves, row by row, the gated blend  z * x + (1 - z) * tanh (…)  of a node's old state and its candidate. The
  reference makes the same three steps on whole tables: a matrix product of a block of rows is the block of the
  product, a change of float format is the identity on the extended reals, and the logistic function the kernel
  applies is by definition the quotient 1 / (1 + exp (-x)) the reference spells. No hypothesis on the inputs is used.
  Each program's frame is its generated run; nothing was rewritten by the idealization, so that conjunct is trivial.
-/
import proofs.«122592_j80221399155535_1_alg».proof.Defs
import proofs.«122592_j80221399155535_1_alg».proof.Proof.Gen.Kernel
import proofs.«122592_j80221399155535_1_alg».proof.Proof.Gen.Kernel.Skeleton
import proofs.«122592_j80221399155535_1_alg».proof.Proof.Gen.Kernel.Launch
import proofs.«122592_j80221399155535_1_alg».proof.Proof.Gen.Kernel.Points
import proofs.«122592_j80221399155535_1_alg».proof.Proof.Gen.Kernel.Frame
import proofs.«122592_j80221399155535_1_alg».proof.Proof.Gen.KernelIdeal
import proofs.«122592_j80221399155535_1_alg».proof.Proof.Gen.KernelIdeal.Skeleton
import proofs.«122592_j80221399155535_1_alg».proof.Proof.Gen.KernelIdeal.Launch
import proofs.«122592_j80221399155535_1_alg».proof.Proof.Gen.KernelIdeal.Points
import proofs.«122592_j80221399155535_1_alg».proof.Proof.Gen.KernelIdeal.Frame
import proofs.«122592_j80221399155535_1_alg».proof.Proof.Gen.ReferenceIdeal
import proofs.«122592_j80221399155535_1_alg».proof.Proof.Gen.Pre_finite_inputs
import proofs.«122592_j80221399155535_1_alg».proof.Proof.Gen.ReferenceIdeal.Run
import proofs.«122592_j80221399155535_1_alg».proof.Proof.Gen.ReferenceIdeal.Read
import proofs.«122592_j80221399155535_1_alg».proof.Proof.Spec
import proofs.«122592_j80221399155535_1_alg».proof.Proof.KernelRun
import proofs.«122592_j80221399155535_1_alg».proof.Proof.KernelMessages
import proofs.«122592_j80221399155535_1_alg».proof.Proof.KernelMiddle
import proofs.«122592_j80221399155535_1_alg».proof.Proof.KernelUpdate
import proofs.«122592_j80221399155535_1_alg».proof.Proof.ReferenceStages
import Idealize.ShloMosaic.Adequacy
import Idealize.ShloMosaic.Init

set_option maxRecDepth 16384

noncomputable section

namespace Cert.Proof

open Idealize.ShloMosaic Idealize.ShloMosaic.TcCoe Idealize.SL.Sem Cert.GatedGraph

/-- The kernel's and the reference's spelling of "the messages summed along the edges" are one composition of the same
    gathers and scatter-adds (they differ in the evidence of shape facts only). -/
theorem summed_agree (M : (⟨Cert.KernelIdeal.S50000x128, .f32⟩ : BufTy).Contents (Elt Ideal))
    (a b : (⟨Cert.KernelIdeal.S600000, .i32⟩ : BufTy).Contents (Elt Ideal)) :
    Cert.ReferenceIdeal.StageValue.summed (F := Ideal) M a b = Cert.KernelIdeal.Middle.summed (F := Ideal) M a b := rfl

section Kernel
open Cert.KernelIdeal Cert.KernelIdeal.Gen

variable (m : (ℓ : Loc nD τ sig) → Buf (Elt Ideal) ℓ) (ρ : Dev nD → PrngReg)

/-- What the idealized kernel leaves in its result array, as a function of the arguments: the update of the messages
    summed along the edges. -/
def kernelResult (c : Dev nD) : Tab 50000 128 :=
  updateTab
    (Cert.KernelIdeal.Middle.summed (F := Ideal)
      (messageTab (m ((c : Thread nD τ).loc main_arg0)) (m ((c : Thread nD τ).loc main_arg3)) (m ((c : Thread nD τ).loc main_arg4))
        (m ((c : Thread nD τ).loc main_arg5)) (m ((c : Thread nD τ).loc main_arg6)))
      (m ((c : Thread nD τ).loc main_arg1)) (m ((c : Thread nD τ).loc main_arg2)))
    (m ((c : Thread nD τ).loc main_arg0)) (m ((c : Thread nD τ).loc main_arg7)) (m ((c : Thread nD τ).loc main_arg8))
    (m ((c : Thread nD τ).loc main_arg9))

/-- The second pipeline's write-backs leave that function of the arguments: its own value at what it finds, what it
    finds read back through the host operations to the first pipeline's result, and that result the message table. -/
theorem result_eq (c : Dev nD) : (dat1 (F := Ideal) (V2 m ρ) c).arrAt 5 cfg1.N = kernelResult m c := by
  rw [Cert.KernelIdeal.UpdateValue.updated (V2 m ρ) c, Cert.KernelIdeal.Middle.entry_summed m ρ c,
    Cert.KernelIdeal.Middle.entry_arg0 m ρ c, Cert.KernelIdeal.Middle.entry_arg7 m ρ c,
    Cert.KernelIdeal.Middle.entry_arg8 m ρ c, Cert.KernelIdeal.Middle.entry_arg9 m ρ c,
    Cert.KernelIdeal.Middle.exit_messages m ρ c, Cert.KernelIdeal.MessageValue.messages (V0 m ρ) c]
  rfl

end Kernel

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the update of the messages summed along the edges, of arguments that agree. -/
theorem algebraic : Cert.algebraic_KernelIdeal_ReferenceIdeal := by
  intro m ρ m' ρ' _ hagree
  refine ⟨fun c => kernelResult m c, ?_, ?_⟩
  · exact (θ_run Cert.KernelIdeal.defs _ _).mono (fun r h c => ⟨(h c).1.trans (result_eq m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v76_eq, Cert.ReferenceIdeal.StageValue.result_eq,
      Cert.ReferenceIdeal.StageValue.summed_eq, Cert.ReferenceIdeal.StageValue.messages_eq,
      e0, e1, e2, e3, e4, e5, e6, e7, e8, e9]
    exact congrArg (fun A => updateTab A _ _ _ _) (summed_agree _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
